-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4x512x512 : Shape := ⟨3, ![4, 512, 512]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S4096x4096 .f32) (main_arg1 : FVec F S4x512x512 .f32) (main_arg2 : FVec F S4x512x512 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S4x512x512 .f32 := Host.absf main_arg2
  let main_cst_2 : FVec F S_ .f32 := constant S_ .f32 0x7F800000#32
  let main_v10 : FVec F S4x512x512 .f32 := broadcastInDim S4x512x512 ![] bcast_S_S4x512x512 main_cst_2
  let main_v11 : IVec S4x512x512 1 := cmpf .olt main_v9 main_v10
  let main_c_3 : IVec S_ 1 := constantI S_ 1 1#1
  let main_v12 : IVec S_ 1 := (fun x v => Host.reduce IntOp.andi x v reducesTo_S4x512x512_S_d0_1_2 h_S_) main_v11 main_c_3
  let main_v13 : IVec S_ 1 := andi main_v8 main_v12
  main_v13
-- ==== Kernel.lean ====
abbrev S4096x4096 : Shape := ⟨2, ![4096, 4096]⟩
abbrev S4x512x512 : Shape := ⟨3, ![4, 512, 512]⟩
abbrev S4096x8x512 : Shape := ⟨3, ![4096, 8, 512]⟩
abbrev S_ : Shape := ⟨0, ![]⟩
abbrev S4096x512 : Shape := ⟨2, ![4096, 512]⟩
abbrev S4096x16384 : Shape := ⟨2, ![4096, 16384]⟩
abbrev S512x4096 : Shape := ⟨2, ![512, 4096]⟩
abbrev S1x512x512 : Shape := ⟨3, ![1, 512, 512]⟩
abbrev S512x512 : Shape := ⟨2, ![512, 512]⟩

abbrev nBuf : Space → Nat
  | .hbm => 14
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4x512x512, .f32⟩
  | .hbm, ⟨2, _⟩ => ⟨S4x512x512, .f32⟩
  | .hbm, ⟨3, _⟩ => ⟨S4x512x512, .f32⟩
  | .hbm, ⟨4, _⟩ => ⟨S4x512x512, .f32⟩
  | .hbm, ⟨5, _⟩ => ⟨S4x512x512, .bf16⟩
  | .hbm, ⟨6, _⟩ => ⟨S4x512x512, .f32⟩
  | .hbm, ⟨7, _⟩ => ⟨S4x512x512, .bf16⟩
  | .hbm, ⟨8, _⟩ => ⟨S4096x4096, .bf16⟩
  | .hbm, ⟨9, _⟩ => ⟨S4096x8x512, .f32⟩
  | .hbm, ⟨10, _⟩ => ⟨S_, .f32⟩
  | .hbm, ⟨11, _⟩ => ⟨S4096x512, .f32⟩
  | .hbm, ⟨12, _⟩ => ⟨S4096x512, .bf16⟩
  | .hbm, ⟨13, _⟩ => ⟨S4096x16384, .f32⟩
  | .local _ .vmem, ⟨0, _⟩ => ⟨S512x4096, .bf16⟩
  | .local _ .vmem, ⟨1, _⟩ => ⟨S512x4096, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x512, .bf16⟩
  | .local _ .vmem, ⟨7, _⟩ => ⟨S512x512, .bf16⟩
  | .local _ .vmem, ⟨8, _⟩ => ⟨S512x4096, .f32⟩
  | .local _ .vmem, ⟨9, _⟩ => ⟨S512x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S4x512x512_S4x512x512_0_2_1 : S4x512x512.Transposes [0, 2, 1] S4x512x512
  bitsLt_bf16_f32 : FTy.bits .bf16 < FTy.bits .f32
  shapeCasts_S4096x4096_S4096x8x512 : S4096x4096.ShapeCasts S4096x8x512
  reducesTo_S4096x8x512_S4096x512_d1 : S4096x8x512.ReducesTo [1] S4096x512
  h_S_ : 0 < S_.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x4096_S512x512_0_0 : ∀ a, (![0, 0] : Fin 2 → Nat) a + S512x512.size a ≤ S512x4096.size a
  inb_S512x4096_S512x512_0_512 : ∀ a, (![0, 512] : Fin 2 → Nat) a + S512x512.size a ≤ S512x4096.size a
  inb_S512x4096_S512x512_0_1024 : ∀ a, (![0, 1024] : Fin 2 → Nat) a + S512x512.size a ≤ S512x4096.size a
  inb_S512x4096_S512x512_0_1536 : ∀ a, (![0, 1536] : Fin 2 → Nat) a + S512x512.size a ≤ S512x4096.size a
  inb_S512x4096_S512x512_0_2048 : ∀ a, (![0, 2048] : Fin 2 → Nat) a + S512x512.size a ≤ S512x4096.size a
  inb_S512x4096_S512x512_0_2560 : ∀ a, (![0, 2560] : Fin 2 → Nat) a + S512x512.size a ≤ S512x4096.size a
  inb_S512x4096_S512x512_0_3072 : ∀ a, (![0, 3072] : Fin 2 → Nat) a + S512x512.size a ≤ S512x4096.size a
  inb_S512x4096_S512x512_0_3584 : ∀ a, (![0, 3584] : Fin 2 → Nat) a + S512x512.size a ≤ S512x4096.size a
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S4x512x512.size a
  hwx0_1 : ∀ i : grid0.Coords, EltTy.bits .bf16 = 32 ∨ (Rect.block (s := S4x512x512) S1x512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S4x512x512.size a
  hwx0_2 : ∀ i : grid0.Coords, EltTy.bits .bf16 = 32 ∨ (Rect.block (s := S4x512x512) S1x512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x512.size a
  hwx0_3 : ∀ i : grid0.Coords, EltTy.bits .bf16 = 32 ∨ (Rect.block (s := S4096x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x16384.size a
  hwx0_4 : ∀ i : grid0.Coords, EltTy.bits .f32 = 32 ∨ (Rect.block (s := S4096x16384) S512x4096.size (cc0_transform_4 i) (hinb0_4 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v5) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4x512x512 : Shape := ⟨3, ![4, 512, 512]⟩
abbrev S4096x8x512 : Shape := ⟨3, ![4096, 8, 512]⟩
abbrev S_ : Shape := ⟨0, ![]⟩
abbrev S4096x512 : Shape := ⟨2, ![4096, 512]⟩
abbrev S4x512x4096x8 : Shape := ⟨4, ![4, 512, 4096, 8]⟩
abbrev S4096x4x8x512 : Shape := ⟨4, ![4096, 4, 8, 512]⟩
abbrev S4096x4x512 : Shape := ⟨3, ![4096, 4, 512]⟩
abbrev S4096x4x1x512 : Shape := ⟨4, ![4096, 4, 1, 512]⟩
abbrev S4096x16384 : Shape := ⟨2, ![4096, 16384]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x512x512, .f32⟩
  | .hbm, ⟨2, _⟩ => ⟨S4x512x512, .f32⟩
  | .hbm, ⟨3, _⟩ => ⟨S4096x8x512, .f32⟩
  | .hbm, ⟨4, _⟩ => ⟨S_, .f32⟩
  | .hbm, ⟨5, _⟩ => ⟨S4096x512, .f32⟩
  | .hbm, ⟨6, _⟩ => ⟨S4x512x512, .f32⟩
  | .hbm, ⟨7, _⟩ => ⟨S4x512x4096x8, .f32⟩
  | .hbm, ⟨8, _⟩ => ⟨S4096x4x8x512, .f32⟩
  | .hbm, ⟨9, _⟩ => ⟨S4096x4x512, .f32⟩
  | .hbm, ⟨10, _⟩ => ⟨S4096x4x1x512, .f32⟩
  | .hbm, ⟨11, _⟩ => ⟨S4096x4x8x512, .f32⟩
  | .hbm, ⟨12, _⟩ => ⟨S4096x4x8x512, .f32⟩
  | .hbm, ⟨13, _⟩ => ⟨S4096x16384, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S4096x4096_S4096x8x512 : S4096x4096.ShapeCasts S4096x8x512
  reducesTo_S4096x8x512_S4096x512_d1 : S4096x8x512.ReducesTo [1] S4096x512
  h_S_ : 0 < S_.numel
  transposes_S4x512x4096x8_S4096x4x8x512_2_0_3_1 : S4x512x4096x8.Transposes [2, 0, 3, 1] S4096x4x8x512
  bcast_S4096x4x512_S4096x4x1x512_0_1_3 : S4096x4x512.BroadcastsInDim S4096x4x1x512 (![0, 1, 3] : Fin 3 → Fin S4096x4x1x512.rank)
  bcast_S4096x4x1x512_S4096x4x8x512_0_1_2_3 : S4096x4x1x512.BroadcastsInDim S4096x4x8x512 (![0, 1, 2, 3] : Fin 4 → Fin S4096x4x8x512.rank)
  shapeCasts_S4096x4x8x512_S4096x16384 : S4096x4x8x512.ShapeCasts S4096x16384
  dot_S4x512x512_S4096x8x512_S4x512x4096x8_2_2_01_01_n_n_wf : DotDims.WF S4x512x512 S4096x8x512 S4x512x4096x8 [2] [2] [0, 1] [0, 1] [] []
  dot_S4096x512_S4x512x512_S4096x4x512_1_2_0_01_n_n_wf : DotDims.WF S4096x512 S4x512x512 S4096x4x512 [1] [2] [0] [0, 1] [] []

variable [Facts₀]

def dot_S4x512x512_S4096x8x512_S4x512x4096x8_2_2_01_01_n_n : DotDims S4x512x512 S4096x8x512 S4x512x4096x8 where
  lhsContracting := [2]
  rhsContracting := [2]
  lhsNonContracting := [0, 1]
  rhsNonContracting := [0, 1]
  lhsBatch := []
  rhsBatch := []
  wf := dot_S4x512x512_S4096x8x512_S4x512x4096x8_2_2_01_01_n_n_wf
def dot_S4096x512_S4x512x512_S4096x4x512_1_2_0_01_n_n : DotDims S4096x512 S4x512x512 S4096x4x512 where
  lhsContracting := [1]
  rhsContracting := [2]
  lhsNonContracting := [0]
  rhsNonContracting := [0, 1]
  lhsBatch := []
  rhsBatch := []
  wf := dot_S4096x512_S4x512x512_S4096x4x512_1_2_0_01_n_n_wf

class Facts : Prop extends Facts₀ where

variable [Facts]
-- ==== Proof.Spec.lean ====
/-
  What both programs compute, index by index, over the extended reals.

  The input `x` is a `4096 × 4096` array read as eight chunks of 512 columns; `A` and `B` are four
  stacked `512 × 512` matrices. With `s[r, h] = Σ_k x[r, k·512 + h]` the sum of a row's chunks, the
  result is the `4096 × 16384` array whose column `g·4096 + i·512 + p` holds, in row `r`,
      Σ_h x[r, i·512 + h] · (A[g, p, h] − B[g, p, h])  +  Σ_h s[r, h] · B[g, p, h].
  The row sums `s` enter both programs as one and the same array, so they are a parameter here and
  are never opened.

  A grid point of the kernel owns 512 rows and one `g`: it holds a `512 × 4096` block of `x`, the
  `g`-th matrices of the two transposed stacks and a `512 × 512` block of `s`, and leaves a
  `512 × 4096` block. `blockMix` is that block as a function of those four, and `blockMix_eq_mix`
  says it is the block of `mix` at rows `b·512 …` and columns `g·4096 …`.
-/
import Idealize.ShloMosaic.PureOps.Ideal
import Idealize.ShloMosaic.Lib.ValueIdx

noncomputable section

open scoped BigOperators

namespace Cert.BlockMix

open Idealize.ShloMosaic Idealize.ShloMosaic.ValueIdx

/-- Column `i·512 + h` of the input: entry `h` of its `i`-th chunk of 512 columns. -/
abbrev chunkCol (i : Fin 8) (h : Fin 512) : Fin 4096 :=
  ⟨i.val * 512 + h.val, by have := i.isLt; have := h.isLt; omega⟩

/-- The result in row `r`, for matrix pair `g`, chunk `i` and column `p` of the chunk:
    `Σ_h x[r, i·512+h] · (A[g,p,h] − B[g,p,h]) + Σ_h s[r,h] · B[g,p,h]`. -/
def entry (x : (⟨2, ![4096, 4096]⟩ : Shape).Idx → EReal) (A B : (⟨3, ![4, 512, 512]⟩ : Shape).Idx → EReal)
    (s : (⟨2, ![4096, 512]⟩ : Shape).Idx → EReal) (r : Fin 4096) (g : Fin 4) (i : Fin 8) (p : Fin 512) : EReal :=
  (∑ h : Fin 512, x (ix2 r (chunkCol i h)) * (A (ix3 g p h) - B (ix3 g p h)))
    + ∑ h : Fin 512, s (ix2 r h) * B (ix3 g p h)

/-- The whole result: column `c` is matrix pair `c / 4096`, chunk `c % 4096 / 512`, column `c % 512`. -/
def mix (x : (⟨2, ![4096, 4096]⟩ : Shape).Idx → EReal) (A B : (⟨3, ![4, 512, 512]⟩ : Shape).Idx → EReal)
    (s : (⟨2, ![4096, 512]⟩ : Shape).Idx → EReal) : (⟨2, ![4096, 16384]⟩ : Shape).Idx → EReal := fun j =>
  entry x A B s (j 0)
    ⟨(j 1).val / 4096, by have h1 : (j 1).val < 16384 := (j 1).isLt; omega⟩
    ⟨(j 1).val % 4096 / 512, by omega⟩
    ⟨(j 1).val % 512, by omega⟩

/-- One grid point's block of the result from the blocks it holds: `xb` its 512 rows of `x`, `db` and
    `bb` one matrix each of the transposed stacks (so `db[0, h, p]` stands for `A[g,p,h] − B[g,p,h]`
    and `bb[0, h, p]` for `B[g,p,h]`), `sb` its 512 rows of the row sums. Column `c` of the block is
    chunk `c / 512`, column `c % 512`. -/
def blockMix (xb : (⟨2, ![512, 4096]⟩ : Shape).Idx → EReal) (db bb : (⟨3, ![1, 512, 512]⟩ : Shape).Idx → EReal)
    (sb : (⟨2, ![512, 512]⟩ : Shape).Idx → EReal) : (⟨2, ![512, 4096]⟩ : Shape).Idx → EReal := fun y =>
  (∑ h : Fin 512, xb (ix2 (y 0) ⟨(y 1).val / 512 * 512 + h.val, by
        have h1 : (y 1).val < 4096 := (y 1).isLt; have := h.isLt; omega⟩)
      * db (ix3 (0 : Fin 1) h ⟨(y 1).val % 512, by omega⟩))
    + ∑ h : Fin 512, sb (ix2 (y 0) h) * bb (ix3 (0 : Fin 1) h ⟨(y 1).val % 512, by omega⟩)

/-- A block of `mix`: when the four blocks are rows `b·512 …` of `x` and of `s` and the `g`-th
    matrices of `A − B` and of `B`, each read transposed, the block function at `y` is `mix` at row
    `b·512 + y₀` and column `g·4096 + y₁`. Only the indices move: each sum is the same sum term by term. -/
theorem blockMix_eq_mix (x : (⟨2, ![4096, 4096]⟩ : Shape).Idx → EReal) (A B : (⟨3, ![4, 512, 512]⟩ : Shape).Idx → EReal)
    (s : (⟨2, ![4096, 512]⟩ : Shape).Idx → EReal)
    (xb : (⟨2, ![512, 4096]⟩ : Shape).Idx → EReal) (db bb : (⟨3, ![1, 512, 512]⟩ : Shape).Idx → EReal)
    (sb : (⟨2, ![512, 512]⟩ : Shape).Idx → EReal) (b : Fin 8) (g : Fin 4)
    (hx : ∀ (r : Fin 512) (c : Fin 4096),
      xb (ix2 r c) = x (ix2 ⟨b.val * 512 + r.val, by have := b.isLt; have := r.isLt; omega⟩ c))
    (hd : ∀ h p : Fin 512, db (ix3 (0 : Fin 1) h p) = A (ix3 g p h) - B (ix3 g p h))
    (hb : ∀ h p : Fin 512, bb (ix3 (0 : Fin 1) h p) = B (ix3 g p h))
    (hs : ∀ r h : Fin 512,
      sb (ix2 r h) = s (ix2 ⟨b.val * 512 + r.val, by have := b.isLt; have := r.isLt; omega⟩ h))
    (r : Fin 512) (c : Fin 4096) :
    blockMix xb db bb sb (ix2 r c)
      = mix x A B s (ix2 ⟨b.val * 512 + r.val, by have := b.isLt; have := r.isLt; omega⟩
          ⟨g.val * 4096 + c.val, by have := g.isLt; have := c.isLt; omega⟩) := by
  have hg := g.isLt
  have hc := c.isLt
  unfold blockMix mix entry
  refine congrArg₂ (· + ·) (Finset.sum_congr rfl fun h _ => ?_) (Finset.sum_congr rfl fun h _ => ?_)
  · have hh := h.isLt
    rw [hx, hd]
    refine congrArg₂ (· * ·) (congrArg x (congrArg (ix2 _) (Fin.ext ?_))) ?_
    · show c.val / 512 * 512 + h.val = (g.val * 4096 + c.val) % 4096 / 512 * 512 + h.val
      omega
    · have e1 : (⟨(g.val * 4096 + c.val) / 4096, by omega⟩ : Fin 4) = g := Fin.ext (by show (g.val * 4096 + c.val) / 4096 = g.val; omega)
      have e2 : (⟨(g.val * 4096 + c.val) % 512, by omega⟩ : Fin 512) = ⟨c.val % 512, by omega⟩ :=
        Fin.ext (by show (g.val * 4096 + c.val) % 512 = c.val % 512; omega)
      show A (ix3 g ⟨c.val % 512, _⟩ h) - B (ix3 g ⟨c.val % 512, _⟩ h)
        = A (ix3 ⟨(g.val * 4096 + c.val) / 4096, _⟩ ⟨(g.val * 4096 + c.val) % 512, _⟩ h)
          - B (ix3 ⟨(g.val * 4096 + c.val) / 4096, _⟩ ⟨(g.val * 4096 + c.val) % 512, _⟩ h)
      rw [e1, e2]
  · rw [hs, hb]
    have e1 : (⟨(g.val * 4096 + c.val) / 4096, by omega⟩ : Fin 4) = g := Fin.ext (by show (g.val * 4096 + c.val) / 4096 = g.val; omega)
    have e2 : (⟨(g.val * 4096 + c.val) % 512, by omega⟩ : Fin 512) = ⟨c.val % 512, by omega⟩ :=
      Fin.ext (by show (g.val * 4096 + c.val) % 512 = c.val % 512; omega)
    show s (ix2 _ h) * B (ix3 g ⟨c.val % 512, _⟩ h)
      = s (ix2 _ h) * B (ix3 ⟨(g.val * 4096 + c.val) / 4096, _⟩ ⟨(g.val * 4096 + c.val) % 512, _⟩ h)
    rw [e1, e2]

/-- The same at a block index `y` as it comes: row `b·512 + y₀`, column `g·4096 + y₁`. -/
theorem blockMix_block (x : (⟨2, ![4096, 4096]⟩ : Shape).Idx → EReal) (A B : (⟨3, ![4, 512, 512]⟩ : Shape).Idx → EReal)
    (s : (⟨2, ![4096, 512]⟩ : Shape).Idx → EReal)
    (xb : (⟨2, ![512, 4096]⟩ : Shape).Idx → EReal) (db bb : (⟨3, ![1, 512, 512]⟩ : Shape).Idx → EReal)
    (sb : (⟨2, ![512, 512]⟩ : Shape).Idx → EReal) (b : Fin 8) (g : Fin 4)
    (hx : ∀ (r : Fin 512) (c : Fin 4096),
      xb (ix2 r c) = x (ix2 ⟨b.val * 512 + r.val, by have := b.isLt; have := r.isLt; omega⟩ c))
    (hd : ∀ h p : Fin 512, db (ix3 (0 : Fin 1) h p) = A (ix3 g p h) - B (ix3 g p h))
    (hb : ∀ h p : Fin 512, bb (ix3 (0 : Fin 1) h p) = B (ix3 g p h))
    (hs : ∀ r h : Fin 512,
      sb (ix2 r h) = s (ix2 ⟨b.val * 512 + r.val, by have := b.isLt; have := r.isLt; omega⟩ h))
    (y : (⟨2, ![512, 4096]⟩ : Shape).Idx) :
    blockMix xb db bb sb y
      = mix x A B s (ix2
          ⟨b.val * 512 + (y 0).val, by have := b.isLt; have h0 : (y 0).val < 512 := (y 0).isLt; omega⟩
          ⟨g.val * 4096 + (y 1).val, by have := g.isLt; have h1 : (y 1).val < 4096 := (y 1).isLt; omega⟩) := by
  obtain ⟨r, c, rfl⟩ : ∃ (r : Fin 512) (c : Fin 4096), y = ix2 r c := ⟨y 0, y 1, eq_ix2 y⟩
  exact blockMix_eq_mix x A B s xb db bb sb b g hx hd hb hs r c

end Cert.BlockMix

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.BlockBody.lean ====
/-
  What the kernel body leaves in its output block.

  At a grid point the body holds a `512 × 4096` block `xb` of the input, one `512 × 512` matrix each
  of the two transposed stacks (`db`, `bb`; each is a `[1, 512, 512]` block) and a `512 × 512` block `sb`
  of the row sums. It forms the product `sb · bb` once, and for each of the eight chunks of 512 columns
  of `xb` the product of that chunk with `db`, adds the two and stores the sum over the same 512
  columns of the output block. Each product accumulates into a zero array, so at an entry it is the
  plain sum over the contracted index. Hence every stored tile is the tile of ONE function of the
  block's index, `blockMix xb db bb sb`; the eight tiles cover the block, so the block is that
  function.
-/
import proofs.«101541_j50087908606417_1_alg».proof.Proof.Gen.KernelIdeal.Frame
import proofs.«101541_j50087908606417_1_alg».proof.Proof.Spec
import proofs.«101541_j50087908606417_1_alg».proof.Proof.LibDot2
import Idealize.ShloMosaic.Lib.ValueLayout
import Idealize.ShloMosaic.Lib.Pipeline.Value

noncomputable section

open scoped BigOperators

namespace Cert.BlockMix.Body

open Cert.KernelIdeal Cert.KernelIdeal.Gen
open Idealize.ShloMosaic Idealize.ShloMosaic.ValueIdx

/-- One product of the body at an entry: a `512 × 512` block times a matrix given as a
    `[1, 512, 512]` block, accumulated into zero, is `Σ_h a[r, h] · w[0, h, p]`. -/
theorem product_apply (a : Vec Ideal S512x512 .bf16) (w : Vec Ideal S1x512x512 .bf16) (r p : Fin 512) :
    matmul dot_S512x512_S512x512_S512x512_1_0_0_1_n_n none
        (shapeCast S512x512 a shapeCasts_S512x512_S512x512 : FVec Ideal S512x512 .bf16)
        (shapeCast S512x512 w shapeCasts_S1x512x512_S512x512 : FVec Ideal S512x512 .bf16)
        (constant (F := Ideal) S512x512 .f32 0x00000000#32) (ix2 r p)
      = ∑ h : Fin 512, a (ix2 r h) * w (ix3 (0 : Fin 1) h p) := by
  refine (Dot2.matmul_zero_mm_apply dot_S512x512_S512x512_S512x512_1_0_0_1_n_n_wf none _ _ r p).trans ?_
  refine Finset.sum_congr rfl fun h _ => ?_
  rw [shapeCast_self, shapeCast_1ab_ab_apply]

/-- A stored value at an entry: the chunk's product plus the shared product. -/
theorem payload_apply (a s : Vec Ideal S512x512 .bf16) (d b : Vec Ideal S1x512x512 .bf16) (r p : Fin 512) :
    addf
        (matmul dot_S512x512_S512x512_S512x512_1_0_0_1_n_n none
          (shapeCast S512x512 a shapeCasts_S512x512_S512x512 : FVec Ideal S512x512 .bf16)
          (shapeCast S512x512 d shapeCasts_S1x512x512_S512x512 : FVec Ideal S512x512 .bf16)
          (constant (F := Ideal) S512x512 .f32 0x00000000#32))
        (matmul dot_S512x512_S512x512_S512x512_1_0_0_1_n_n none
          (shapeCast S512x512 s shapeCasts_S512x512_S512x512 : FVec Ideal S512x512 .bf16)
          (shapeCast S512x512 b shapeCasts_S1x512x512_S512x512 : FVec Ideal S512x512 .bf16)
          (constant (F := Ideal) S512x512 .f32 0x00000000#32)) (ix2 r p)
      = (∑ h : Fin 512, a (ix2 r h) * d (ix3 (0 : Fin 1) h p))
        + ∑ h : Fin 512, s (ix2 r h) * b (ix3 (0 : Fin 1) h p) := by
  rw [addf_apply, product_apply, product_apply]

/-- The tile stored over columns `o … o + 511` of the output block (`o` a multiple of 512) is the tile
    of `blockMix` there: the chunk of `xb` it multiplies is read through the same columns. -/
theorem tile_eq (x0 : Vec Ideal S512x4096 .bf16) (x1 x2 : Vec Ideal S1x512x512 .bf16) (x3 : Vec Ideal S512x512 .bf16)
    (o : Nat) (ho : o % 512 = 0) (inb : ∀ a, (![0, o] : Fin 2 → Nat) a + S512x512.size a ≤ S512x4096.size a)
    (y : S512x512.Idx) :
    addf
        (matmul dot_S512x512_S512x512_S512x512_1_0_0_1_n_n none
          (shapeCast S512x512 (View.ld x0 (Rect.unit (s := S512x4096) ![0, o] S512x512.size inb)) shapeCasts_S512x512_S512x512 : FVec Ideal S512x512 .bf16)
          (shapeCast S512x512 (View.ld x1 r0_1) shapeCasts_S1x512x512_S512x512 : FVec Ideal S512x512 .bf16)
          (constant (F := Ideal) S512x512 .f32 0x00000000#32))
        (matmul dot_S512x512_S512x512_S512x512_1_0_0_1_n_n none
          (shapeCast S512x512 (View.ld x3 r0_0) shapeCasts_S512x512_S512x512 : FVec Ideal S512x512 .bf16)
          (shapeCast S512x512 (View.ld x2 r0_1) shapeCasts_S1x512x512_S512x512 : FVec Ideal S512x512 .bf16)
          (constant (F := Ideal) S512x512 .f32 0x00000000#32)) y
      = Cert.BlockMix.blockMix x0 x1 x2 x3 ((Rect.unit (s := S512x4096) ![0, o] S512x512.size inb).emb y) := by
  obtain ⟨r, p, rfl⟩ : ∃ (r p : Fin 512), y = ix2 r p := ⟨y 0, y 1, eq_ix2 y⟩
  have hr := r.isLt
  have hp := p.isLt
  rw [payload_apply]
  unfold Cert.BlockMix.blockMix
  refine congrArg₂ (· + ·) (Finset.sum_congr rfl fun h _ => ?_) (Finset.sum_congr rfl fun h _ => ?_)
  · have hh := h.isLt
    refine congrArg₂ (· * ·) (congrArg x0 ?_) (congrArg x1 ?_)
    · funext a; apply Fin.ext
      match a with
      | ⟨0, _⟩ => rfl
      | ⟨1, _⟩ =>
        show o + 1 * h.val = (o + 1 * p.val) / 512 * 512 + h.val
        omega
    · funext a; apply Fin.ext
      match a with
      | ⟨0, _⟩ => rfl
      | ⟨1, _⟩ => show 0 + 1 * h.val = h.val; omega
      | ⟨2, _⟩ => show 0 + 1 * p.val = (o + 1 * p.val) % 512; omega
  · have hh := h.isLt
    refine congrArg₂ (· * ·) (congrArg x3 ?_) (congrArg x2 ?_)
    · funext a; apply Fin.ext
      match a with
      | ⟨0, _⟩ => show 0 + 1 * r.val = 0 + 1 * r.val; rfl
      | ⟨1, _⟩ => show 0 + 1 * h.val = h.val; omega
    · funext a; apply Fin.ext
      match a with
      | ⟨0, _⟩ => rfl
      | ⟨1, _⟩ => show 0 + 1 * h.val = h.val; omega
      | ⟨2, _⟩ => show 0 + 1 * p.val = (o + 1 * p.val) % 512; omega

/-- THE BLOCK the body leaves is `blockMix` of the four blocks it read: each of the eight stores is a
    tile of that one function, and the tiles cover the block. -/
theorem out_eq_blockMix (x0 : Vec Ideal S512x4096 .bf16) (x1 x2 : Vec Ideal S1x512x512 .bf16) (x3 : Vec Ideal S512x512 .bf16) :
    out0_4 (F := Ideal) x0 x1 x2 x3 = Cert.BlockMix.blockMix x0 x1 x2 x3 := by
  funext y
  unfold out0_4
  refine View.canon_apply_of_pieces (Val := Elt Ideal) (S := S512x4096) (e := .f32) (Cert.BlockMix.blockMix x0 x1 x2 x3) _ ?_ y
    (cover0_4 _ _ _ _ _ _ _ _ y)
  intro q hq z
  simp only [List.mem_cons, List.not_mem_nil, or_false] at hq
  rcases hq with rfl | rfl | rfl | rfl | rfl | rfl | rfl | rfl
  · exact tile_eq x0 x1 x2 x3 3584 (by decide) _ z
  · exact tile_eq x0 x1 x2 x3 3072 (by decide) _ z
  · exact tile_eq x0 x1 x2 x3 2560 (by decide) _ z
  · exact tile_eq x0 x1 x2 x3 2048 (by decide) _ z
  · exact tile_eq x0 x1 x2 x3 1536 (by decide) _ z
  · exact tile_eq x0 x1 x2 x3 1024 (by decide) _ z
  · exact tile_eq x0 x1 x2 x3 512 (by decide) _ z
  · exact tile_eq x0 x1 x2 x3 0 (by decide) _ z

end Cert.BlockMix.Body

end
-- ==== Proof.Entry.lean ====
/-
  What the kernel's region finds in the arrays it stages, and where each grid point's blocks sit.

  Before the region the host part of the kernel writes four arrays: the input unchanged (a change of
  float format is the identity on the extended reals); the stack `A − B` with each matrix transposed,
  so that entry `(g, h, p)` is `A[g,p,h] − B[g,p,h]`; the stack `B` with each matrix transposed; and
  the row sums of the input's eight chunks, which are kept as the host's reduction and not opened.

  The grid has `8 × 4` points; point `t` is row block `t / 4` and matrix pair `t % 4`. The input's and
  the row sums' windows move with the row block only, the two stacks' windows with the matrix pair
  only, and the output's block is at row block `t / 4`, column block `t % 4`.
-/
import proofs.«101541_j50087908606417_1_alg».proof.Proof.Gen.KernelIdeal.Frame
import Idealize.ShloMosaic.Lib.StableHlo.Run
import Idealize.ShloMosaic.Lib.ValueIdx

noncomputable section

namespace Cert.BlockMix.Entry

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The row sums of the input's eight chunks, as the host computes them: the input reshaped to
    `[4096, 8, 512]` and summed over the chunk axis from zero. -/
abbrev rowSums (x : S4096x4096.Idx → EReal) : S4096x512.Idx → EReal :=
  Host.reduceAdd (F := Ideal) (φ := .f32) (shapeCast S4096x8x512 x shapeCasts_S4096x4096_S4096x8x512)
    (constant (F := Ideal) S_ .f32 0x00000000#32) reducesTo_S4096x8x512_S4096x512_d1 h_S_

/-- The first window's array is the input itself. -/
theorem entry_x (c : Dev nD) :
    (V m c main_v5 : S4096x4096.Idx → EReal) = (m ((c : Thread nD τ).loc main_arg0) : S4096x4096.Idx → EReal) := by
  dsimp only [V, hostOps0]; after_results; rfl

/-- The second window's array is `A − B`, each matrix transposed. -/
theorem entry_d (c : Dev nD) :
    (V m c main_v2 : S4x512x512.Idx → EReal)
      = transpose S4x512x512 [0, 2, 1]
          (subf (F := Ideal) (φ := .f32) (m ((c : Thread nD τ).loc main_arg1)) (m ((c : Thread nD τ).loc main_arg2)))
          transposes_S4x512x512_S4x512x512_0_2_1 := by
  dsimp only [V, hostOps0]; after_results; rfl

/-- The third window's array is `B`, each matrix transposed. -/
theorem entry_b (c : Dev nD) :
    (V m c main_v4 : S4x512x512.Idx → EReal)
      = transpose S4x512x512 [0, 2, 1]
          (m ((c : Thread nD τ).loc main_arg2) : S4x512x512.Idx → EReal) transposes_S4x512x512_S4x512x512_0_2_1 := by
  dsimp only [V, hostOps0]; after_results; rfl

/-- The fourth window's array is the row sums of the input. -/
theorem entry_s (c : Dev nD) :
    (V m c main_v8 : S4096x512.Idx → EReal) = rowSums (m ((c : Thread nD τ).loc main_arg0)) := by
  dsimp only [V, hostOps0]; after_results; rfl

/-- The printed index maps, decided over the grid's 32 points. -/
theorem idx_facts : ∀ t : Fin cfg0.N,
    win0_0.index t (0 : Fin 2) = t.val / 4 ∧ win0_0.index t (1 : Fin 2) = 0
    ∧ win0_1.index t (0 : Fin 3) = t.val % 4 ∧ win0_1.index t (1 : Fin 3) = 0 ∧ win0_1.index t (2 : Fin 3) = 0
    ∧ win0_2.index t (0 : Fin 3) = t.val % 4 ∧ win0_2.index t (1 : Fin 3) = 0 ∧ win0_2.index t (2 : Fin 3) = 0
    ∧ win0_3.index t (0 : Fin 2) = t.val / 4 ∧ win0_3.index t (1 : Fin 2) = 0
    ∧ win0_4.index t (0 : Fin 2) = t.val / 4 ∧ win0_4.index t (1 : Fin 2) = t.val % 4 :=
  (by decide +kernel : ∀ t : Fin grid0.N, _)

/-- Every pair (row block, matrix pair) is some point's. -/
theorem idx_onto : ∀ (q0 : Fin 8) (q1 : Fin 4), ∃ t : Fin cfg0.N, win0_4.index t = ![q0.val, q1.val] :=
  (by decide +kernel : ∀ (q0 : Fin 8) (q1 : Fin 4), ∃ t : Fin grid0.N, win0_4.index t = ![q0.val, q1.val])

end Cert.BlockMix.Entry

end
-- ==== Proof.KernelValue.lean ====
/-
  From the blocks to the whole array: the kernel's result is `mix`.

  Grid point `t` is row block `t / 4` and matrix pair `t % 4`. The blocks it holds are rows
  `(t/4)·512 …` of the input and of the row sums, and matrix `t % 4` of the two transposed stacks:
  entry `(0, h, p)` of the one is `A[g,p,h] − B[g,p,h]`, of the other `B[g,p,h]`. So the block it
  leaves, `blockMix` of those four, is the block of `mix` at rows `(t/4)·512 …` and columns
  `(t%4)·4096 …`, which is where the pipeline writes it. The 32 blocks tile the `4096 × 16384`
  result (row `i₀`, column `i₁` lies in the block of row block `i₀ / 512` and matrix pair
  `i₁ / 4096`), so after the run the result array is `mix` of the arguments and the input's row sums.
-/
import proofs.«101541_j50087908606417_1_alg».proof.Proof.Gen.KernelIdeal.Value
import proofs.«101541_j50087908606417_1_alg».proof.Proof.Spec
import proofs.«101541_j50087908606417_1_alg».proof.Proof.BlockBody
import proofs.«101541_j50087908606417_1_alg».proof.Proof.Entry
import Idealize.ShloMosaic.Lib.ValueLayout

noncomputable section

namespace Cert.BlockMix.Kernel

open Cert.KernelIdeal Cert.KernelIdeal.Gen
open Idealize.ShloMosaic Idealize.ShloMosaic.TcCoe Idealize.ShloMosaic.ValueIdx Idealize.SL.Sem
open Idealize.ShloMosaic.Pipeline (Dat)
open Cert.BlockMix.Entry

variable (m : (ℓ : Loc nD τ sig) → Buf (Elt Ideal) ℓ) (ρ : Dev nD → PrngReg)

/-- The three argument arrays as launched on core `c`, as arrays of extended reals. -/
abbrev argX (c : Dev nD) : S4096x4096.Idx → EReal := m ((c : Thread nD τ).loc main_arg0)
abbrev argA (c : Dev nD) : S4x512x512.Idx → EReal := m ((c : Thread nD τ).loc main_arg1)
abbrev argB (c : Dev nD) : S4x512x512.Idx → EReal := m ((c : Thread nD τ).loc main_arg2)

/-- What the result array ends holding on core `c`: `mix` of the three arguments and the input's row sums. -/
abbrev result (c : Dev nD) : S4096x16384.Idx → EReal :=
  Cert.BlockMix.mix (argX m c) (argA m c) (argB m c) (rowSums (argX m c))

/-! ## The four blocks at a point -/

/-- The input's block at point `t`: rows `(t/4)·512 …`, all columns. -/
theorem blk_x (c : Dev nD) (t : Fin cfg0.N) (r : Fin 512) (q : Fin 4096) :
    iblk m c 0 t (ix2 r q)
      = argX m c (ix2 ⟨t.val / 4 * 512 + r.val, by
          have := t.isLt; have : cfg0.N = 32 := N_0; have := r.isLt; omega⟩ q) := by
  obtain ⟨e0, e1, -⟩ := idx_facts t
  have hr := r.isLt
  have hq := q.isLt
  show V m c main_v5 (((cfg0.win 0).blk t).view.emb (ix2 r q)) = _
  rw [entry_x]
  refine congrArg _ (funext fun a => Fin.ext ?_)
  match a with
  | ⟨0, _⟩ => show win0_0.index t (0 : Fin 2) * 512 + 1 * r.val = t.val / 4 * 512 + r.val; omega
  | ⟨1, _⟩ => show win0_0.index t (1 : Fin 2) * 4096 + 1 * q.val = q.val; omega

/-- The first stack's block at point `t`: matrix `t % 4` of `A − B`, transposed. -/
theorem blk_d (c : Dev nD) (t : Fin cfg0.N) (h p : Fin 512) :
    iblk m c 1 t (ix3 (0 : Fin 1) h p)
      = argA m c (ix3 (⟨t.val % 4, by omega⟩ : Fin 4) p h) - argB m c (ix3 (⟨t.val % 4, by omega⟩ : Fin 4) p h) := by
  obtain ⟨-, -, e0, e1, e2, -⟩ := idx_facts t
  have hh := h.isLt
  have hp := p.isLt
  show V m c main_v2 (((cfg0.win 1).blk t).view.emb (ix3 (0 : Fin 1) h p)) = _
  have e : ((cfg0.win 1).blk t).view.emb (ix3 (0 : Fin 1) h p) = ix3 (⟨t.val % 4, by omega⟩ : Fin 4) h p := by
    funext a; apply Fin.ext
    match a with
    | ⟨0, _⟩ => show win0_1.index t (0 : Fin 3) * 1 + 1 * 0 = t.val % 4; omega
    | ⟨1, _⟩ => show win0_1.index t (1 : Fin 3) * 512 + 1 * h.val = h.val; omega
    | ⟨2, _⟩ => show win0_1.index t (2 : Fin 3) * 512 + 1 * p.val = p.val; omega
  rw [e, entry_d, transpose_ix3_021_apply]
  rfl

/-- The second stack's block at point `t`: matrix `t % 4` of `B`, transposed. -/
theorem blk_b (c : Dev nD) (t : Fin cfg0.N) (h p : Fin 512) :
    iblk m c 2 t (ix3 (0 : Fin 1) h p)
      = argB m c (ix3 (⟨t.val % 4, by omega⟩ : Fin 4) p h) := by
  obtain ⟨-, -, -, -, -, e0, e1, e2, -⟩ := idx_facts t
  have hh := h.isLt
  have hp := p.isLt
  show V m c main_v4 (((cfg0.win 2).blk t).view.emb (ix3 (0 : Fin 1) h p)) = _
  have e : ((cfg0.win 2).blk t).view.emb (ix3 (0 : Fin 1) h p) = ix3 (⟨t.val % 4, by omega⟩ : Fin 4) h p := by
    funext a; apply Fin.ext
    match a with
    | ⟨0, _⟩ => show win0_2.index t (0 : Fin 3) * 1 + 1 * 0 = t.val % 4; omega
    | ⟨1, _⟩ => show win0_2.index t (1 : Fin 3) * 512 + 1 * h.val = h.val; omega
    | ⟨2, _⟩ => show win0_2.index t (2 : Fin 3) * 512 + 1 * p.val = p.val; omega
  rw [e, entry_b, transpose_ix3_021_apply]

/-- The row sums' block at point `t`: rows `(t/4)·512 …`. -/
theorem blk_s (c : Dev nD) (t : Fin cfg0.N) (r h : Fin 512) :
    iblk m c 3 t (ix2 r h)
      = rowSums (argX m c) (ix2 ⟨t.val / 4 * 512 + r.val, by
          have := t.isLt; have : cfg0.N = 32 := N_0; have := r.isLt; omega⟩ h) := by
  obtain ⟨-, -, -, -, -, -, -, -, e0, e1, -⟩ := idx_facts t
  have hr := r.isLt
  have hh := h.isLt
  show V m c main_v8 (((cfg0.win 3).blk t).view.emb (ix2 r h)) = _
  rw [entry_s]
  refine congrArg _ (funext fun a => Fin.ext ?_)
  match a with
  | ⟨0, _⟩ => show win0_3.index t (0 : Fin 2) * 512 + 1 * r.val = t.val / 4 * 512 + r.val; omega
  | ⟨1, _⟩ => show win0_3.index t (1 : Fin 2) * 512 + 1 * h.val = h.val; omega

/-! ## What a point writes back, and the array after the run -/

/-- WHAT POINT `t` WRITES BACK is its block of `result`. -/
theorem flushed_eq (c : Dev nD) (t : Fin cfg0.N) :
    (dats m 0 c).flushed 4 t = ((cfg0.win 4).blk t).view.read (Elt Ideal) (result m c) := by
  have ht : t.val < 32 := by have := t.isLt; have : cfg0.N = 32 := N_0; omega
  obtain ⟨-, -, -, -, -, -, -, -, -, -, e0, e1⟩ := idx_facts t
  rw [Cert.KernelIdeal.Value.flushed4, Cert.BlockMix.Body.out_eq_blockMix]
  funext y
  have hy0 : (y 0).val < 512 := (y 0).isLt
  have hy1 : (y 1).val < 4096 := (y 1).isLt
  show Cert.BlockMix.blockMix (iblk m c 0 t) (iblk m c 1 t) (iblk m c 2 t) (iblk m c 3 t) y
    = result m c (((cfg0.win 4).blk t).view.emb y)
  refine (Cert.BlockMix.blockMix_block (argX m c) (argA m c) (argB m c) (rowSums (argX m c))
    (iblk m c 0 t) (iblk m c 1 t) (iblk m c 2 t) (iblk m c 3 t)
    ⟨t.val / 4, by omega⟩ ⟨t.val % 4, by omega⟩
    (fun r q => blk_x m c t r q) (fun h p => blk_d m c t h p) (fun h p => blk_b m c t h p)
    (fun r h => blk_s m c t r h) y).trans ?_
  refine congrArg (result m c) (funext fun a => Fin.ext ?_)
  match a with
  | ⟨0, _⟩ => show t.val / 4 * 512 + (y 0).val = win0_4.index t (0 : Fin 2) * 512 + 1 * (y 0).val; omega
  | ⟨1, _⟩ => show t.val % 4 * 4096 + (y 1).val = win0_4.index t (1 : Fin 2) * 4096 + 1 * (y 1).val; omega

/-- An index of the result array is in point `t`'s block iff each coordinate is in the block's range. -/
theorem mem_blk (t : Fin cfg0.N) (i : S4096x16384.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v9).slice (win0_4.rect t)).set ↔ _
  rw [View.set_slice_whole, Rect.mem_set_unit]
  exact Iff.rfl

/-- Every index of the result array is in some point's block: the one of row block `i₀ / 512` and
    matrix pair `i₁ / 4096`. -/
theorem covered (i : S4096x16384.Idx) :
    ∃ t : Fin cfg0.N, (cfg0.win 4).flush t = true ∧ i ∈ ((cfg0.win 4).blk t).view.set := by
  have hi0 : (i 0).val < 4096 := (i 0).isLt
  have hi1 : (i 1).val < 16384 := (i 1).isLt
  obtain ⟨t, ht⟩ := idx_onto ⟨(i 0).val / 512, by omega⟩ ⟨(i 1).val / 4096, by omega⟩
  have q0 : win0_4.index t (0 : Fin 2) = (i 0).val / 512 := congrFun ht 0
  have q1 : win0_4.index t (1 : Fin 2) = (i 1).val / 4096 := congrFun ht 1
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 4096 ≤ (i 1).val ∧ (i 1).val < win0_4.index t (1 : Fin 2) * 4096 + 4096
    omega

/-- THE RESULT ARRAY after the run is `result`. -/
theorem final (c : Dev nD) : (dats m 0 c).arrAt 4 cfg0.N = result m c :=
  (dats m 0 c).arrAt_eq_of_cover 4 (result m c) (fun t _ => flushed_eq m c t) covered

/-- The kernel's run: every fair execution ends with the result array at `result` and the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.BlockMix.Kernel

end
-- ==== Proof.RefSide.lean ====
/-
  The reference's result is `mix`.

  The reference reshapes `x` to `[4096, 8, 512]` (row `r`, chunk `k`, entry `h` is `x[r, k·512 + h]`),
  contracts the last axis of `A − B` with the last axis of that (giving `[4, 512, 4096, 8]`: matrix
  pair, column, row, chunk), transposes to `[4096, 4, 8, 512]`, adds the product of the row sums with
  `B` broadcast over the chunk axis, and flattens the last three axes. Read at a column
  `c = g·4096 + i·512 + p` of row `r`, the flattening picks `(r, g, i, p)`; the first product there is
  `Σ_h (A[g,p,h] − B[g,p,h]) · x[r, i·512 + h]`, which is `mix`'s first sum with the factors of each
  term exchanged, and the second is `mix`'s second sum as it stands. The row sums are the reference's
  own stage and are carried unopened.
-/
import proofs.«101541_j50087908606417_1_alg».proof.Proof.Gen.ReferenceIdeal.Read
import proofs.«101541_j50087908606417_1_alg».proof.Proof.Spec

noncomputable section

open scoped BigOperators

namespace Cert.BlockMix.Reference

open Cert.ReferenceIdeal Cert.ReferenceIdeal.Gen Cert.ReferenceIdeal.Read
open Idealize.ShloMosaic Idealize.ShloMosaic.ValueIdx

/-- The reference's last stage, as a function of the three arguments, is `mix` of them and of the
    reference's row sums (its stage `val_main_v1`). -/
theorem result_eq_mix (x : (⟨S4096x4096, .f32⟩ : BufTy).Contents (Elt Ideal))
    (A B : (⟨S4x512x512, .f32⟩ : BufTy).Contents (Elt Ideal)) :
    val_main_v9 (F := Ideal) x A B = Cert.BlockMix.mix x A B (val_main_v1 (F := Ideal) x) := by
  funext j
  have h0 : (j 0).val < 4096 := (j 0).isLt
  have h1 : (j 1).val < 16384 := (j 1).isLt
  rw [val_main_v9_apply, val_main_v8_apply, val_main_v4_apply, val_main_v3_apply, val_main_v7_apply,
    val_main_v6_apply, val_main_v5_apply]
  unfold Cert.BlockMix.mix Cert.BlockMix.entry
  rw [Ideal.addf_def]
  refine congrArg₂ (· + ·) (Finset.sum_congr rfl fun h _ => ?_) (Finset.sum_congr rfl fun h _ => ?_)
  · have hh : h.val < 512 := h.isLt
    rw [val_main_v2_apply, val_main_v0_apply, Ideal.subf_def, mul_comm]
    refine congrArg₂ (· * ·) (congrArg x ?_) (congrArg₂ (· - ·) (congrArg A ?_) (congrArg B ?_))
    · funext a; apply Fin.ext
      match a with
      | ⟨0, _⟩ =>
        show ((((j 0).val * 16384 + (j 1).val) / 16384 * 8 + ((j 0).val * 16384 + (j 1).val) / 512 % 8) * 512 + h.val) / 4096
          = (j 0).val
        omega
      | ⟨1, _⟩ =>
        show ((((j 0).val * 16384 + (j 1).val) / 16384 * 8 + ((j 0).val * 16384 + (j 1).val) / 512 % 8) * 512 + h.val) % 4096
          = (j 1).val % 4096 / 512 * 512 + h.val
        omega
    · funext a; apply Fin.ext
      match a with
      | ⟨0, _⟩ => show ((j 0).val * 16384 + (j 1).val) / 4096 % 4 = (j 1).val / 4096; omega
      | ⟨1, _⟩ => show ((j 0).val * 16384 + (j 1).val) % 512 = (j 1).val % 512; omega
      | ⟨2, _⟩ => rfl
    · funext a; apply Fin.ext
      match a with
      | ⟨0, _⟩ => show ((j 0).val * 16384 + (j 1).val) / 4096 % 4 = (j 1).val / 4096; omega
      | ⟨1, _⟩ => show ((j 0).val * 16384 + (j 1).val) % 512 = (j 1).val % 512; omega
      | ⟨2, _⟩ => rfl
  · refine congrArg₂ (· * ·) (congrArg (val_main_v1 (F := Ideal) x) ?_) (congrArg B ?_)
    · funext a; apply Fin.ext
      match a with
      | ⟨0, _⟩ => show ((j 0).val * 16384 + (j 1).val) / 16384 = (j 0).val; omega
      | ⟨1, _⟩ => rfl
    · funext a; apply Fin.ext
      match a with
      | ⟨0, _⟩ => show ((j 0).val * 16384 + (j 1).val) / 4096 % 4 = (j 1).val / 4096; omega
      | ⟨1, _⟩ => show ((j 0).val * 16384 + (j 1).val) % 512 = (j 1).val % 512; omega
      | ⟨2, _⟩ => rfl

end Cert.BlockMix.Reference

end
-- ==== Proof.lean ====
/-
  The kernel and its reference compute one array over the extended reals.

  Arguments: `x : [4096, 4096]`, read as eight chunks of 512 columns, and two stacks `A, B : [4, 512, 512]`
  of four square matrices. With `s[r, h] = Σ_k x[r, k·512 + h]` the sum of the chunks of row `r`, both
  programs leave the `[4096, 16384]` array whose column `g·4096 + i·512 + p` holds in row `r`
      Σ_h x[r, i·512 + h] · (A[g,p,h] − B[g,p,h])  +  Σ_h s[r, h] · B[g,p,h]
  (`Cert.BlockMix.mix`, Proof/Spec.lean).

  The reference forms `A − B`, contracts it and `B` with the reshaped input and the row sums on the
  host, and flattens; read at an index this is `mix` with the two factors of each term of the first
  sum exchanged (Proof/RefSide.lean). The kernel transposes `A − B` and `B` on the host and runs a
  grid of `8 × 4` points, row block by matrix pair; a point multiplies each 512-column chunk of its
  rows of `x` by its matrix of `(A − B)ᵀ`, adds its rows of `s` times its matrix of `Bᵀ`, and writes
  the eight tiles side by side (Proof/BlockBody.lean); the 32 blocks tile the result
  (Proof/KernelValue.lean, over what the region finds in the staged arrays, Proof/Entry.lean).
  The row sums are one host reduction of the same reshaped input in both programs and are never
  opened; a change of float format is the identity on the extended reals; every product accumulates
  into zero. No law beyond the commutativity of the product is used, so the finiteness of the inputs
  is not needed. The ideal pass rewrote nothing, so the kernel's idealization is its own text.
-/
import proofs.«101541_j50087908606417_1_alg».proof.Defs
import proofs.«101541_j50087908606417_1_alg».proof.Proof.Gen.Kernel
import proofs.«101541_j50087908606417_1_alg».proof.Proof.Gen.Kernel.Skeleton
import proofs.«101541_j50087908606417_1_alg».proof.Proof.Gen.Kernel.Launch
import proofs.«101541_j50087908606417_1_alg».proof.Proof.Gen.Kernel.Points
import proofs.«101541_j50087908606417_1_alg».proof.Proof.Gen.Kernel.Frame
import proofs.«101541_j50087908606417_1_alg».proof.Proof.Gen.KernelIdeal
import proofs.«101541_j50087908606417_1_alg».proof.Proof.Gen.KernelIdeal.Skeleton
import proofs.«101541_j50087908606417_1_alg».proof.Proof.Gen.KernelIdeal.Launch
import proofs.«101541_j50087908606417_1_alg».proof.Proof.Gen.KernelIdeal.Points
import proofs.«101541_j50087908606417_1_alg».proof.Proof.Gen.KernelIdeal.Frame
import proofs.«101541_j50087908606417_1_alg».proof.Proof.Gen.ReferenceIdeal
import proofs.«101541_j50087908606417_1_alg».proof.Proof.Gen.Pre_finite_inputs
import proofs.«101541_j50087908606417_1_alg».proof.Proof.Gen.KernelIdeal.Value
import proofs.«101541_j50087908606417_1_alg».proof.Proof.Gen.ReferenceIdeal.Run
import proofs.«101541_j50087908606417_1_alg».proof.Proof.Gen.ReferenceIdeal.Read
import proofs.«101541_j50087908606417_1_alg».proof.Proof.KernelValue
import proofs.«101541_j50087908606417_1_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on the arguments the kernel ends with its result array at `mix` of its
    arguments and their row sums, and the reference with its result at `mix` of its own: the same array. -/
theorem algebraic : Cert.algebraic_KernelIdeal_ReferenceIdeal := by
  intro m ρ m' ρ' _ hagree
  refine ⟨fun c => Cert.BlockMix.Kernel.result m c, Cert.BlockMix.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.BlockMix.Reference.result_eq_mix,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
